-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8x8192x512 : Shape := ⟨3, ![8, 8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8x8192x512 : S_.BroadcastsInDim S8x8192x512 (![] : Fin 0 → Fin S8x8192x512.rank)
  reducesTo_S8x8192x512_S_d0_1_2 : S8x8192x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  main_v73

def fn_part3 {F : FTy → Type} [FloatOps F] (main_arg11 : FVec F S512x512 .f32) (main_arg12 : FVec F S512x512 .f32) (main_arg13 : FVec F S512 .f32) (main_arg14 : FVec F S512x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S8x8192x512 .f32) (main_arg2 : FVec F S8x8192x512 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x512 : Shape := ⟨2, ![8192, 512]⟩
abbrev S8x8192x512 : Shape := ⟨3, ![8, 8192, 512]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S8x256x512 : Shape := ⟨3, ![8, 256, 512]⟩
abbrev S1x256x512 : Shape := ⟨3, ![1, 256, 512]⟩

abbrev nBuf : Space → Nat
  | .hbm => 21
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8x8192x512, .f32⟩
  | .hbm, ⟨2, _⟩ => ⟨S8x8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S8192x512, .f32⟩
  | .hbm, ⟨20, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S8x256x512, .f32⟩
  | .local _ .vmem, ⟨3, _⟩ => ⟨S8x256x512, .f32⟩
  | .local _ .vmem, ⟨4, _⟩ => ⟨S8x256x512, .f32⟩
  | .local _ .vmem, ⟨5, _⟩ => ⟨S8x256x512, .f32⟩
  | .local _ .vmem, ⟨6, _⟩ => ⟨S512x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | .local _ .vmem, ⟨16, _⟩ => ⟨S1x512, .f32⟩
  | .local _ .vmem, ⟨17, _⟩ => ⟨S512x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S512_S1x512 : S512.ShapeCasts S1x512
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S8x256x512_S8x256x512_0_0_0 : ∀ a, (![0, 0, 0] : Fin 3 → Nat) a + S8x256x512.size a ≤ S8x256x512.size a
  h_S8x256x512 : 0 < S8x256x512.numel
  reduces_S8x256x512_S256x512 : S8x256x512.Reduces [0] S256x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  slices_S8x256x512_o0_0_0_S1x256x512 : S8x256x512.Slices ![0, 0, 0] S1x256x512
  shapeCasts_S1x256x512_S256x512 : S1x256x512.ShapeCasts S256x512
  slices_S8x256x512_o1_0_0_S1x256x512 : S8x256x512.Slices ![1, 0, 0] S1x256x512
  slices_S8x256x512_o2_0_0_S1x256x512 : S8x256x512.Slices ![2, 0, 0] S1x256x512
  slices_S8x256x512_o3_0_0_S1x256x512 : S8x256x512.Slices ![3, 0, 0] S1x256x512
  slices_S8x256x512_o4_0_0_S1x256x512 : S8x256x512.Slices ![4, 0, 0] S1x256x512
  slices_S8x256x512_o5_0_0_S1x256x512 : S8x256x512.Slices ![5, 0, 0] S1x256x512
  slices_S8x256x512_o6_0_0_S1x256x512 : S8x256x512.Slices ![6, 0, 0] S1x256x512
  slices_S8x256x512_o7_0_0_S1x256x512 : S8x256x512.Slices ![7, 0, 0] S1x256x512
  dot_S256x512_S512x512_S256x512_1_1_0_0_n_n_wf : DotDims.WF S256x512 S512x512 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S8192x512.size a
  hwx0_0 : ∀ i : grid0.Coords, EltTy.bits .f32 = 32 ∨ (Rect.block (s := S8192x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x8192x512.size a
  hwx0_1 : ∀ i : grid0.Coords, EltTy.bits .f32 = 32 ∨ (Rect.block (s := S8x8192x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x512.size a ≤ S8x8192x512.size a
  hwx0_2 : ∀ i : grid0.Coords, EltTy.bits .f32 = 32 ∨ (Rect.block (s := S8x8192x512) S8x256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .f32 = 32 ∨ (Rect.block (s := S512x512) S512x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .f32 = 32 ∨ (Rect.block (s := S512x512) S512x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x512.size a ≤ S8192x512.size a
  hwx0_15 : ∀ i : grid0.Coords, EltTy.bits .f32 = 32 ∨ (Rect.block (s := S8192x512) S256x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x512.size a ≤ S8192x512.size a
  hwx0_16 : ∀ i : grid0.Coords, EltTy.bits .f32 = 32 ∨ (Rect.block (s := S8192x512) S256x512.size (cc0_transform_16 i) (hinb0_16 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v4_0) S256x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4_1) S256x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x512 : Shape := ⟨2, ![8192, 512]⟩
abbrev S8x8192x512 : Shape := ⟨3, ![8, 8192, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S1x8192x512 : Shape := ⟨3, ![1, 8192, 512]⟩

abbrev nBuf : Space → Nat
  | .hbm => 82
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8x8192x512, .f32⟩
  | .hbm, ⟨2, _⟩ => ⟨S8x8192x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S_, .f32⟩
  | .hbm, ⟨16, _⟩ => ⟨S8192x512, .f32⟩
  | .hbm, ⟨17, _⟩ => ⟨S512x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S512x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S512x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S512x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192x512, .f32⟩
  | .hbm, ⟨45, _⟩ => ⟨S8192x512, .f32⟩
  | .hbm, ⟨46, _⟩ => ⟨S_, .f32⟩
  | .hbm, ⟨47, _⟩ => ⟨S8192x512, .f32⟩
  | .hbm, ⟨48, _⟩ => ⟨S8192x512, .f32⟩
  | .hbm, ⟨49, _⟩ => ⟨S512x512, .f32⟩
  | .hbm, ⟨50, _⟩ => ⟨S8192x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S512x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S512x512, .f32⟩
  | .hbm, ⟨59, _⟩ => ⟨S8192x512, .f32⟩
  | .hbm, ⟨60, _⟩ => ⟨S1x512, .f32⟩
  | .hbm, ⟨61, _⟩ => ⟨S8192x512, .f32⟩
  | .hbm, ⟨62, _⟩ => ⟨S8192x512, .f32⟩
  | .hbm, ⟨63, _⟩ => ⟨S1x8192x512, .f32⟩
  | .hbm, ⟨64, _⟩ => ⟨S8x8192x512, .f32⟩
  | .hbm, ⟨65, _⟩ => ⟨S8x8192x512, .f32⟩
  | .hbm, ⟨66, _⟩ => ⟨S8x8192x512, .f32⟩
  | .hbm, ⟨67, _⟩ => ⟨S8x8192x512, .f32⟩
  | .hbm, ⟨68, _⟩ => ⟨S8x8192x512, .f32⟩
  | .hbm, ⟨69, _⟩ => ⟨S_, .f32⟩
  | .hbm, ⟨70, _⟩ => ⟨S8x8192x512, .f32⟩
  | .hbm, ⟨71, _⟩ => ⟨S8x8192x512, .f32⟩
  | .hbm, ⟨72, _⟩ => ⟨S_, .f32⟩
  | .hbm, ⟨73, _⟩ => ⟨S8x8192x512, .f32⟩
  | .hbm, ⟨74, _⟩ => ⟨S8x8192x512, .f32⟩
  | .hbm, ⟨75, _⟩ => ⟨S8192x512, .f32⟩
  | .hbm, ⟨76, _⟩ => ⟨S8x8192x512, .f32⟩
  | .hbm, ⟨77, _⟩ => ⟨S_, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  reducesTo_S8x8192x512_S8192x512_d0 : S8x8192x512.ReducesTo [0] S8192x512
  h_S_ : 0 < S_.numel
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S8192x512_S1x8192x512_1_2 : S8192x512.BroadcastsInDim S1x8192x512 (![1, 2] : Fin 2 → Fin S1x8192x512.rank)
  bcast_S1x8192x512_S8x8192x512_0_1_2 : S1x8192x512.BroadcastsInDim S8x8192x512 (![0, 1, 2] : Fin 3 → Fin S8x8192x512.rank)
  bcast_S_S8x8192x512 : S_.BroadcastsInDim S8x8192x512 (![] : Fin 0 → Fin S8x8192x512.rank)
  dot_S8192x512_S512x512_S8192x512_1_0_0_1_n_n_wf : DotDims.WF S8192x512 S512x512 S8192x512 [1] [0] [0] [1] [] []
  dot_S8x8192x512_S512x512_S8x8192x512_2_1_01_0_n_n_wf : DotDims.WF S8x8192x512 S512x512 S8x8192x512 [2] [1] [0, 1] [0] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8x8192x512_S512x512_S8x8192x512_2_1_01_0_n_n : DotDims S8x8192x512 S512x512 S8x8192x512 where
  lhsContracting := [2]
  rhsContracting := [1]
  lhsNonContracting := [0, 1]
  rhsNonContracting := [0]
  lhsBatch := []
  rhsBatch := []
  wf := dot_S8x8192x512_S512x512_S8x8192x512_2_1_01_0_n_n_wf

class Facts : Prop extends Facts₀ where

variable [Facts]
-- ==== Proof.Cell.lean ====
/-
  The child-sum tree-LSTM cell, as one function of a batch row.

  For one batch row the cell reads the input row `x` (512 entries), the eight children's hidden rows `ch j` and, at
  the output column `g`, the eight children's memory entries `cc j`; the weights are stored `[out, in]`, so a
  linear layer's entry at column `g` is the inner product of the row with the weight's row `g`:

    hs        = ∑ j, ch j                                             (the children's hidden rows summed)
    i, o      = σ(⟨x, W g⟩ + b g + ⟨hs, U g⟩)                          (input and output gates)
    u         = tanh(⟨x, W_u g⟩ + b_u g + ⟨hs, U_u g⟩)                 (the update)
    f j       = σ((⟨x, W_f g⟩ + b_f g) + ⟨ch j, U_f g⟩)                (one forget gate per child)
    c         = i · u + ∑ j, f j · cc j
    h         = o · tanh c

  over the extended reals, with `σ = Ideal.logistic`. Nothing here needs the entries to be finite: both programs
  compute these very sums and products, in another order of the additions at most.
-/
import Idealize.ShloMosaic.PureOps.Ideal
import Idealize.ShloMosaic.PureOps.Ideal.Laws
import Idealize.ShloMosaic.Lib.ValueIdx

noncomputable section

namespace Cert.TreeLstm

open Idealize.ShloMosaic Idealize.ShloMosaic.ValueIdx

/-- A row of 512 entries: an input row, a child's hidden row, a bias. -/
abbrev Row := Fin 512 → EReal
/-- A weight matrix, stored `[out, in]`. -/
abbrev Mat := Fin 512 → Fin 512 → EReal

/-- The inner product of a row with row `g` of a weight: entry `g` of the linear layer without its bias. -/
def dotRow (a : Row) (W : Mat) (g : Fin 512) : EReal := ∑ k : Fin 512, a k * W g k

/-- The children's hidden rows summed. -/
def childSum (ch : Fin 8 → Row) : Row := fun k => ∑ j : Fin 8, ch j k

/-- A gate's pre-activation at column `g`: `⟨x, W g⟩ + b g + ⟨h, U g⟩`. -/
def gatePre (x h : Row) (W : Mat) (b : Row) (U : Mat) (g : Fin 512) : EReal :=
  dotRow x W g + b g + dotRow h U g

/-- The new memory entry at column `g`. -/
def cellC (x : Row) (ch : Fin 8 → Row) (cc : Fin 8 → EReal) (Wi : Mat) (bi : Row) (Ui : Mat) (Wf : Mat) (bf : Row) (Uf : Mat)
    (Wu : Mat) (bu : Row) (Uu : Mat) (g : Fin 512) : EReal :=
  Ideal.logistic (gatePre x (childSum ch) Wi bi Ui g) * Ideal.tanh (gatePre x (childSum ch) Wu bu Uu g)
    + ∑ j : Fin 8, Ideal.logistic (gatePre x (ch j) Wf bf Uf g) * cc j

/-- The new hidden entry at column `g`. -/
def cellH (x : Row) (ch : Fin 8 → Row) (cc : Fin 8 → EReal) (Wi : Mat) (bi : Row) (Ui : Mat) (Wf : Mat) (bf : Row) (Uf : Mat)
    (Wo : Mat) (bo : Row) (Uo : Mat) (Wu : Mat) (bu : Row) (Uu : Mat) (g : Fin 512) : EReal :=
  Ideal.logistic (gatePre x (childSum ch) Wo bo Uo g) * Ideal.tanh (cellC x ch cc Wi bi Ui Wf bf Uf Wu bu Uu g)

/-- The forget-gated memory accumulated child by child from zero, as the kernel's unrolled loop does, is the sum
    over the eight children. -/
theorem acc_eight (a : Fin 8 → EReal) :
    0 + a 0 + a 1 + a 2 + a 3 + a 4 + a 5 + a 6 + a 7 = ∑ j : Fin 8, a j := by
  rw [Fin.sum_univ_eight, zero_add]

/-! ## The cell over arrays

The same cell read off arrays of any number `n` of batch rows: the whole batch (`n = 8192`) and one grid point's
block of it (`n = 256`) alike. Row `b` of the batch only ever meets row `b` of `x`, of each child's hidden state and
of each child's memory; the weights and biases are shared by every row. -/

/-- Row `b` of a `[n, 512]` array. -/
abbrev rowOf {n : Nat} (X : (⟨2, ![n, 512]⟩ : Shape).Idx → EReal) (b : Fin n) : Row := fun k => X (ix2 b k)
/-- Row `b` of each of the eight children in a `[8, n, 512]` array. -/
abbrev rowsOf {n : Nat} (X : (⟨3, ![8, n, 512]⟩ : Shape).Idx → EReal) (b : Fin n) : Fin 8 → Row := fun j k => X (ix3 j b k)
/-- Entry `(b, g)` of each of the eight children in a `[8, n, 512]` array. -/
abbrev colOf {n : Nat} (X : (⟨3, ![8, n, 512]⟩ : Shape).Idx → EReal) (b : Fin n) (g : Fin 512) : Fin 8 → EReal := fun j => X (ix3 j b g)
/-- A `[512, 512]` weight by its two coordinates. -/
abbrev matOf (W : (⟨2, ![512, 512]⟩ : Shape).Idx → EReal) : Mat := fun g k => W (ix2 g k)

/-- A `[512]` bias as a row. -/
abbrev vecOf (b : (⟨1, ![512]⟩ : Shape).Idx → EReal) : Row := fun g => b (ix1 g)
/-- The one row of a `[1, 512]` bias block. -/
abbrev biasOf (b : (⟨2, ![1, 512]⟩ : Shape).Idx → EReal) : Row := fun g => b (ix2 (0 : Fin 1) g)

/-- The new memory, as an array of `n` batch rows. -/
def memOf {n : Nat} (x : (⟨2, ![n, 512]⟩ : Shape).Idx → EReal) (ch cc : (⟨3, ![8, n, 512]⟩ : Shape).Idx → EReal)
    (Wi : Mat) (bi : Row) (Ui : Mat) (Wf : Mat) (bf : Row) (Uf : Mat) (Wu : Mat) (bu : Row) (Uu : Mat) :
    (⟨2, ![n, 512]⟩ : Shape).Idx → EReal :=
  fun i => cellC (rowOf x (i 0)) (rowsOf ch (i 0)) (colOf cc (i 0) (i 1)) Wi bi Ui Wf bf Uf Wu bu Uu (i 1)

/-- The new hidden state, as an array of `n` batch rows. -/
def hidOf {n : Nat} (x : (⟨2, ![n, 512]⟩ : Shape).Idx → EReal) (ch cc : (⟨3, ![8, n, 512]⟩ : Shape).Idx → EReal)
    (Wi : Mat) (bi : Row) (Ui : Mat) (Wf : Mat) (bf : Row) (Uf : Mat) (Wo : Mat) (bo : Row) (Uo : Mat)
    (Wu : Mat) (bu : Row) (Uu : Mat) : (⟨2, ![n, 512]⟩ : Shape).Idx → EReal :=
  fun i => cellH (rowOf x (i 0)) (rowsOf ch (i 0)) (colOf cc (i 0) (i 1)) Wi bi Ui Wf bf Uf Wo bo Uo Wu bu Uu (i 1)

/-- The cell only meets one batch row: if row `y 0` of a block's arrays is row `i 0` of the whole arrays, and the column is
    the same, the block's new memory at `y` is the whole batch's at `i`. -/
theorem memOf_block {n N : Nat} (xb : (⟨2, ![n, 512]⟩ : Shape).Idx → EReal) (chb ccb : (⟨3, ![8, n, 512]⟩ : Shape).Idx → EReal)
    (x : (⟨2, ![N, 512]⟩ : Shape).Idx → EReal) (ch cc : (⟨3, ![8, N, 512]⟩ : Shape).Idx → EReal)
    (Wi : Mat) (bi : Row) (Ui : Mat) (Wf : Mat) (bf : Row) (Uf : Mat) (Wu : Mat) (bu : Row) (Uu : Mat)
    (y : (⟨2, ![n, 512]⟩ : Shape).Idx) (i : (⟨2, ![N, 512]⟩ : Shape).Idx) (hg : y 1 = i 1)
    (hx : ∀ k, xb (ix2 (y 0) k) = x (ix2 (i 0) k)) (hch : ∀ j k, chb (ix3 j (y 0) k) = ch (ix3 j (i 0) k))
    (hcc : ∀ j, ccb (ix3 j (y 0) (y 1)) = cc (ix3 j (i 0) (i 1))) :
    memOf xb chb ccb Wi bi Ui Wf bf Uf Wu bu Uu y = memOf x ch cc Wi bi Ui Wf bf Uf Wu bu Uu i := by
  unfold memOf
  rw [show rowOf xb (y 0) = rowOf x (i 0) from funext hx,
    show rowsOf chb (y 0) = rowsOf ch (i 0) from funext fun j => funext (hch j),
    show colOf ccb (y 0) (y 1) = colOf cc (i 0) (i 1) from funext hcc, hg]

/-- Likewise the new hidden state. -/
theorem hidOf_block {n N : Nat} (xb : (⟨2, ![n, 512]⟩ : Shape).Idx → EReal) (chb ccb : (⟨3, ![8, n, 512]⟩ : Shape).Idx → EReal)
    (x : (⟨2, ![N, 512]⟩ : Shape).Idx → EReal) (ch cc : (⟨3, ![8, N, 512]⟩ : Shape).Idx → EReal)
    (Wi : Mat) (bi : Row) (Ui : Mat) (Wf : Mat) (bf : Row) (Uf : Mat) (Wo : Mat) (bo : Row) (Uo : Mat) (Wu : Mat) (bu : Row) (Uu : Mat)
    (y : (⟨2, ![n, 512]⟩ : Shape).Idx) (i : (⟨2, ![N, 512]⟩ : Shape).Idx) (hg : y 1 = i 1)
    (hx : ∀ k, xb (ix2 (y 0) k) = x (ix2 (i 0) k)) (hch : ∀ j k, chb (ix3 j (y 0) k) = ch (ix3 j (i 0) k))
    (hcc : ∀ j, ccb (ix3 j (y 0) (y 1)) = cc (ix3 j (i 0) (i 1))) :
    hidOf xb chb ccb Wi bi Ui Wf bf Uf Wo bo Uo Wu bu Uu y = hidOf x ch cc Wi bi Ui Wf bf Uf Wo bo Uo Wu bu Uu i := by
  unfold hidOf
  rw [show rowOf xb (y 0) = rowOf x (i 0) from funext hx,
    show rowsOf chb (y 0) = rowsOf ch (i 0) from funext fun j => funext (hch j),
    show colOf ccb (y 0) (y 1) = colOf cc (i 0) (i 1) from funext hcc, hg]

end Cert.TreeLstm

end
-- ==== Proof.BlockOps.lean ====
/-
  The kernel body's operations on one grid point's block, read at an entry, over the extended reals.

  A block holds 256 batch rows. Per row `p` and column `g`:
  · a matrix product of a `[256, 512]` operand with a `[512, 512]` weight, contracted over the SECOND axis of both
    (the weight is stored `[out, in]`), into a zero accumulator, is the inner product of row `p` of the operand
    with row `g` of the weight; narrowing an operand to bf16 changes nothing over the extended reals;
  · a `[1, 512]` bias broadcast over the rows is the bias at `g`;
  · the sum of the eight children's blocks over the leading axis is the sum over the children at `(p, k)`;
  · child `j`'s slice of a `[8, 256, 512]` block, recast to `[256, 512]`, is the block at `(j, p, k)`.
-/
import proofs.«138829_j22247930593470_1_alg».proof.Proof.Gen.KernelIdeal.Skeleton
import proofs.«138829_j22247930593470_1_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.TreeLstm.Block

open Cert.KernelIdeal Cert.KernelIdeal.Gen Cert.TreeLstm
open Idealize.ShloMosaic Idealize.ShloMosaic.TcCoe Idealize.ShloMosaic.ValueIdx

/-- The body's one matrix product: `[256, 512] × [512, 512] → [256, 512]`, contracting axis 1 of both. -/
abbrev dotT := dot_S256x512_S512x512_S256x512_1_1_0_0_n_n

theorem lhs_dotT_0 (i : S256x512.Idx) (q : dot_S256x512_S512x512_S256x512_1_1_0_0_n_n.contr.Idx) :
    (dot_S256x512_S512x512_S256x512_1_1_0_0_n_n.lhsIdx i q 0).val = (i 0).val := by
  unfold DotDims.lhsIdx
  rw [dif_neg (show ¬(0 : Fin S256x512.rank) ∈ dot_S256x512_S512x512_S256x512_1_1_0_0_n_n.lhsBatch by decide), dif_pos (show (0 : Fin S256x512.rank) ∈ dot_S256x512_S512x512_S256x512_1_1_0_0_n_n.lhsNonContracting by decide)]
  rfl
theorem lhs_dotT_1 (i : S256x512.Idx) (q : dot_S256x512_S512x512_S256x512_1_1_0_0_n_n.contr.Idx) :
    (dot_S256x512_S512x512_S256x512_1_1_0_0_n_n.lhsIdx i q 1).val = (q ⟨0, by decide⟩).val :=
  dot_S256x512_S512x512_S256x512_1_1_0_0_n_n.lhsIdx_val_of_single rfl i q
theorem rhs_dotT_0 (i : S256x512.Idx) (q : dot_S256x512_S512x512_S256x512_1_1_0_0_n_n.contr.Idx) :
    (dot_S256x512_S512x512_S256x512_1_1_0_0_n_n.rhsIdx i q 0).val = (i 1).val := by
  unfold DotDims.rhsIdx
  rw [dif_neg (show ¬(0 : Fin S512x512.rank) ∈ dot_S256x512_S512x512_S256x512_1_1_0_0_n_n.rhsBatch by decide), dif_pos (show (0 : Fin S512x512.rank) ∈ dot_S256x512_S512x512_S256x512_1_1_0_0_n_n.rhsNonContracting by decide)]
  rfl
theorem rhs_dotT_1 (i : S256x512.Idx) (q : dot_S256x512_S512x512_S256x512_1_1_0_0_n_n.contr.Idx) :
    (dot_S256x512_S512x512_S256x512_1_1_0_0_n_n.rhsIdx i q 1).val = (q ⟨0, by decide⟩).val :=
  dot_S256x512_S512x512_S256x512_1_1_0_0_n_n.rhsIdx_val_of_single rfl i q

/-- A product into the zero accumulator at `(p, g)`: row `p` of the left operand against row `g` of the weight. -/
theorem matmul_apply {φ₁ φ₂ : FTy} (A : FVec Ideal S256x512 φ₁) (W : FVec Ideal S512x512 φ₂) (p : Fin 256) (g : Fin 512) :
    matmul dot_S256x512_S512x512_S256x512_1_1_0_0_n_n none A W (constant S256x512 .f32 0x00000000#32) (ix2 p g)
      = dotRow (fun k => A (ix2 p k)) (fun g k => W (ix2 g k)) g := by
  simp only [matmul]
  rw [Ideal.matmul_constant_zero_apply, ← Equiv.sum_comp (ValueIdx.contrEquiv1 dot_S256x512_S512x512_S256x512_1_1_0_0_n_n 512 rfl rfl).symm]
  unfold dotRow
  refine Finset.sum_congr rfl fun k _ => ?_
  have hk := ValueIdx.contrEquiv1_symm_val dot_S256x512_S512x512_S256x512_1_1_0_0_n_n 512 rfl rfl k
  have el : dot_S256x512_S512x512_S256x512_1_1_0_0_n_n.lhsIdx (ix2 p g) ((ValueIdx.contrEquiv1 dot_S256x512_S512x512_S256x512_1_1_0_0_n_n 512 rfl rfl).symm k) = ix2 p k := funext fun a => Fin.ext (by
    match a with
    | ⟨0, _⟩ => exact lhs_dotT_0 _ _
    | ⟨1, _⟩ => exact (lhs_dotT_1 _ _).trans hk)
  have er : dot_S256x512_S512x512_S256x512_1_1_0_0_n_n.rhsIdx (ix2 p g) ((ValueIdx.contrEquiv1 dot_S256x512_S512x512_S256x512_1_1_0_0_n_n 512 rfl rfl).symm k) = ix2 g k := funext fun a => Fin.ext (by
    match a with
    | ⟨0, _⟩ => exact rhs_dotT_0 _ _
    | ⟨1, _⟩ => exact (rhs_dotT_1 _ _).trans hk)
  rw [el, er]

/-- A `[1, 512]` bias, recast to its own shape and broadcast over the 256 rows, at `(p, g)`. -/
theorem bias_apply (b : FVec Ideal S1x512 .f32) (h₁ : S1x512.ShapeCasts S1x512) (h₂ : S1x512.Broadcasts S256x512)
    (p : Fin 256) (g : Fin 512) :
    broadcastTo S256x512 (shapeCast S1x512 b h₁) h₂ (ix2 p g) = b (ix2 (0 : Fin 1) g) := by
  rw [ValueIdx.broadcastTo_1b_ab_apply, shapeCast_self]

/-- The eight children's blocks summed over the leading axis, at `(p, k)`. -/
theorem childSum_apply (x : FVec Ideal S8x256x512 .f32) (h : S8x256x512.Reduces [0] S256x512) (hφ) (hacc)
    (p : Fin 256) (k : Fin 512) :
    multiReduction .add [0] S256x512 x 0x00000000#32 h hφ hacc (ix2 p k) = ∑ j : Fin 8, x (ix3 j p k) := by
  rw [Ideal.multiReduction_add_single]
  refine Finset.sum_congr rfl fun j _ => congrArg x (funext fun a => Fin.ext ?_)
  match a with
  | ⟨0, _⟩ => rfl
  | ⟨1, _⟩ => rfl
  | ⟨2, _⟩ => rfl

/-- Child `o`'s slice of an `[8, 256, 512]` block, recast to `[256, 512]`, at `(p, k)`. -/
theorem child_apply (x : FVec Ideal S8x256x512 .f32) (o : Nat) (ho : o < 8) (hs : S8x256x512.Slices ![o, 0, 0] S1x256x512)
    (hc : S1x256x512.ShapeCasts S256x512) (p : Fin 256) (k : Fin 512) :
    shapeCast S256x512 (extractStridedSlice S1x256x512 ![o, 0, 0] x hs) hc (ix2 p k) = x (ix3 (⟨o, ho⟩ : Fin 8) p k) := by
  rw [ValueIdx.shapeCast_1ab_ab_apply]
  refine extractStridedSlice_apply _ x hs _ _ fun a => ?_
  match a with
  | ⟨0, _⟩ => show o = o + 0; omega
  | ⟨1, _⟩ => show p.val = 0 + p.val; omega
  | ⟨2, _⟩ => show k.val = 0 + k.val; omega

/-- `tanh` and the logistic function act entry by entry. -/
theorem tanh_apply {s : Shape} {φ : FTy} (v : FVec Ideal s φ) (i : s.Idx) : tanh v i = Ideal.tanh (v i) := rfl
theorem logistic_apply {s : Shape} {φ : FTy} (v : FVec Ideal s φ) (i : s.Idx) : logistic v i = Ideal.logistic (v i) := rfl

end Cert.TreeLstm.Block

end
-- ==== Proof.BlockCell.lean ====
/-
  What one grid point computes, entry by entry: the tree-LSTM cell of the block's rows.
-/
import proofs.«138829_j22247930593470_1_alg».proof.Proof.BlockOps

noncomputable section

namespace Cert.TreeLstm.Block

open Cert.KernelIdeal Cert.KernelIdeal.Gen Cert.TreeLstm
open Idealize.ShloMosaic Idealize.ShloMosaic.TcCoe Idealize.ShloMosaic.ValueIdx

variable (x0 : Vec Ideal S256x512 .f32) (x1 x2 : Vec Ideal S8x256x512 .f32)

/-- The summed children's hidden rows, narrowed (no change over the extended reals). -/
theorem pay4_apply (p : Fin 256) (k : Fin 512) : k0_pay4 (F := Ideal) x1 (ix2 p k) = childSum (rowsOf x1 p) k := by
  show multiReduction (F := Ideal) .add [0] S256x512 x1 0x00000000#32 reduces_S8x256x512_S256x512 (.inl rfl) rfl (ix2 p k) = _
  exact childSum_apply x1 _ _ _ p k

theorem pay4_row (p : Fin 256) : (fun k => k0_pay4 (F := Ideal) x1 (ix2 p k)) = childSum (rowsOf x1 p) :=
  funext fun k => pay4_apply x1 p k

/-- A gate's pre-activation on the block (the input and output gates share this shape). -/
theorem pay5_apply (W : Vec Ideal S512x512 .f32) (b : Vec Ideal S1x512 .f32) (U : Vec Ideal S512x512 .f32) (p : Fin 256) (g : Fin 512) :
    k0_pay5 (F := Ideal) x0 x1 W b U (ix2 p g)
      = gatePre (rowOf x0 p) (childSum (rowsOf x1 p)) (matOf W) (biasOf b) (matOf U) g := by
  unfold k0_pay5
  rw [addf_apply, addf_apply, matmul_apply, matmul_apply, bias_apply, pay4_row]
  rfl

theorem pay6_apply (W : Vec Ideal S512x512 .f32) (b : Vec Ideal S1x512 .f32) (U : Vec Ideal S512x512 .f32) (p : Fin 256) (g : Fin 512) :
    k0_pay6 (F := Ideal) x0 x1 W b U (ix2 p g)
      = gatePre (rowOf x0 p) (childSum (rowsOf x1 p)) (matOf W) (biasOf b) (matOf U) g := by
  unfold k0_pay6
  rw [addf_apply, addf_apply, matmul_apply, matmul_apply, bias_apply, pay4_row]
  rfl

/-- The update on the block: `tanh` of its pre-activation. -/
theorem pay10_apply (W : Vec Ideal S512x512 .f32) (b : Vec Ideal S1x512 .f32) (U : Vec Ideal S512x512 .f32) (p : Fin 256) (g : Fin 512) :
    k0_pay10 (F := Ideal) (k0_pay4 x1) (k0_pay7 x0 W) b U (ix2 p g)
      = Ideal.tanh (gatePre (rowOf x0 p) (childSum (rowsOf x1 p)) (matOf W) (biasOf b) (matOf U) g) := by
  unfold k0_pay10 k0_pay7
  rw [tanh_apply, addf_apply, addf_apply, matmul_apply, matmul_apply, bias_apply, pay4_row]
  rfl

/-- The part of a forget gate's pre-activation every child shares: `⟨x, W_f g⟩ + b_f g`. -/
theorem pay11_apply (W : Vec Ideal S512x512 .f32) (b : Vec Ideal S1x512 .f32) (p : Fin 256) (g : Fin 512) :
    k0_pay11 (F := Ideal) (k0_pay3 x0) W b (ix2 p g) = dotRow (rowOf x0 p) (matOf W) g + biasOf b g := by
  unfold k0_pay11
  rw [addf_apply, matmul_apply, bias_apply]
  rfl

/-- Child `o`'s forget gate times its memory, at `(p, g)`, over any shared part `pre` and any narrowed weight `U`. -/
def term (pre : FVec Ideal S256x512 .f32) (U : FVec Ideal S512x512 .bf16) (p : Fin 256) (g : Fin 512) (o : Fin 8) : EReal :=
  Ideal.logistic (pre (ix2 p g) + dotRow (rowsOf x1 p o) (fun g k => U (ix2 g k)) g) * x2 (ix3 o p g)

theorem term_apply (pre : FVec Ideal S256x512 .f32) (U : FVec Ideal S512x512 .bf16) (o : Nat) (ho : o < 8)
    (hs : S8x256x512.Slices ![o, 0, 0] S1x256x512) (hc : S1x256x512.ShapeCasts S256x512) (hb : FTy.bits .bf16 < FTy.bits .f32)
    (p : Fin 256) (g : Fin 512) :
    mulf (logistic (addf pre (matmul dot_S256x512_S512x512_S256x512_1_1_0_0_n_n none
        (truncf .bf16 (shapeCast S256x512 (extractStridedSlice S1x256x512 ![o, 0, 0] x1 hs) hc) hb) U (constant S256x512 .f32 0x00000000#32))))
      (shapeCast S256x512 (extractStridedSlice S1x256x512 ![o, 0, 0] x2 hs) hc) (ix2 p g)
      = term x1 x2 pre U p g ⟨o, ho⟩ := by
  rw [mulf_apply, logistic_apply, addf_apply, matmul_apply, child_apply x2 o ho]
  unfold term
  simp only [truncf_apply, child_apply x1 o ho hs hc]

/-- The first two children's terms, accumulated from zero. -/
theorem pay13_apply (A : FVec Ideal S256x512 .bf16) (W : Vec Ideal S512x512 .f32) (b : Vec Ideal S1x512 .f32) (U : Vec Ideal S512x512 .f32)
    (p : Fin 256) (g : Fin 512) :
    k0_pay13 (F := Ideal) A x1 x2 W b U (ix2 p g)
      = 0 + term x1 x2 (k0_pay11 A W b) (k0_pay12 U) p g 0 + term x1 x2 (k0_pay11 A W b) (k0_pay12 U) p g 1 := by
  unfold k0_pay13
  rw [addf_apply, addf_apply, term_apply x1 x2 _ _ 1 (by decide), term_apply x1 x2 _ _ 0 (by decide), broadcast_apply]
  rw [show Scalar.ofBits (F := Ideal) .f32 0x00000000#32 = 0 from Ideal.ofBits_zero_f32]
  rfl

/-- Children 2 to 6 added to what was accumulated. -/
theorem pay15_apply (pre : FVec Ideal S256x512 .f32) (U : FVec Ideal S512x512 .bf16) (acc : FVec Ideal S256x512 .f32)
    (p : Fin 256) (g : Fin 512) :
    k0_pay15 (F := Ideal) x1 x2 pre U acc (k0_pay14 x1) (constant S256x512 .f32 0x00000000#32) (ix2 p g)
      = acc (ix2 p g) + term x1 x2 pre U p g 2 + term x1 x2 pre U p g 3 + term x1 x2 pre U p g 4
          + term x1 x2 pre U p g 5 + term x1 x2 pre U p g 6 := by
  unfold k0_pay15 k0_pay14
  rw [addf_apply, addf_apply, addf_apply, addf_apply, addf_apply,
    term_apply x1 x2 _ _ 6 (by decide), term_apply x1 x2 _ _ 5 (by decide), term_apply x1 x2 _ _ 4 (by decide),
    term_apply x1 x2 _ _ 3 (by decide), term_apply x1 x2 _ _ 2 (by decide)]
  rfl

/-- The last child's term, gate and memory apart as the body keeps them. -/
theorem pay16_17_apply (pre : FVec Ideal S256x512 .f32) (U : FVec Ideal S512x512 .bf16) (p : Fin 256) (g : Fin 512) :
    mulf (k0_pay16 (F := Ideal) x1 pre U) (k0_pay17 x2) (ix2 p g) = term x1 x2 pre U p g 7 := by
  unfold k0_pay16 k0_pay17
  rw [term_apply x1 x2 _ _ 7 (by decide)]
  rfl

/-- With the shared part and the narrowed weight the body passes, a child's term is the cell's. -/
theorem term_cell (Wf : Vec Ideal S512x512 .f32) (bf : Vec Ideal S1x512 .f32) (Uf : Vec Ideal S512x512 .f32)
    (p : Fin 256) (g : Fin 512) (o : Fin 8) :
    term x1 x2 (k0_pay11 (k0_pay3 x0) Wf bf) (k0_pay12 Uf) p g o
      = Ideal.logistic (gatePre (rowOf x0 p) (rowsOf x1 p o) (matOf Wf) (biasOf bf) (matOf Uf) g) * colOf x2 p g o := by
  unfold term gatePre
  rw [pay11_apply]
  rfl

/-- THE NEW MEMORY ON THE BLOCK: what the body stores to the memory output's buffer is the cell's memory of the block's rows. -/
theorem mem_apply (Wi : Vec Ideal S512x512 .f32) (bi : Vec Ideal S1x512 .f32) (Ui : Vec Ideal S512x512 .f32)
    (Wf : Vec Ideal S512x512 .f32) (bf : Vec Ideal S1x512 .f32) (Uf : Vec Ideal S512x512 .f32)
    (Wu : Vec Ideal S512x512 .f32) (bu : Vec Ideal S1x512 .f32) (Uu : Vec Ideal S512x512 .f32) (p : Fin 256) (g : Fin 512) :
    k0_pay1 (F := Ideal) (k0_pay8 (k0_pay5 x0 x1 Wi bi Ui)) (k0_pay10 (k0_pay4 x1) (k0_pay7 x0 Wu) bu Uu)
        (k0_pay15 x1 x2 (k0_pay11 (k0_pay3 x0) Wf bf) (k0_pay12 Uf) (k0_pay13 (k0_pay3 x0) x1 x2 Wf bf Uf) (k0_pay14 x1) (constant S256x512 .f32 0x00000000#32))
        (k0_pay16 x1 (k0_pay11 (k0_pay3 x0) Wf bf) (k0_pay12 Uf)) (k0_pay17 x2) (ix2 p g)
      = memOf x0 x1 x2 (matOf Wi) (biasOf bi) (matOf Ui) (matOf Wf) (biasOf bf) (matOf Uf) (matOf Wu) (biasOf bu) (matOf Uu) (ix2 p g) := by
  unfold k0_pay1 k0_pay8
  rw [addf_apply, mulf_apply, logistic_apply, pay5_apply, pay10_apply, addf_apply, pay16_17_apply, pay15_apply, pay13_apply]
  simp only [term_cell]
  exact congrArg (_ + ·) (acc_eight fun o => Ideal.logistic (gatePre (rowOf x0 p) (rowsOf x1 p o) (matOf Wf) (biasOf bf) (matOf Uf) g) * colOf x2 p g o)

/-- THE NEW HIDDEN STATE ON THE BLOCK: the output gate times `tanh` of the new memory. -/
theorem hid_apply (Wi : Vec Ideal S512x512 .f32) (bi : Vec Ideal S1x512 .f32) (Ui : Vec Ideal S512x512 .f32)
    (Wf : Vec Ideal S512x512 .f32) (bf : Vec Ideal S1x512 .f32) (Uf : Vec Ideal S512x512 .f32)
    (Wo : Vec Ideal S512x512 .f32) (bo : Vec Ideal S1x512 .f32) (Uo : Vec Ideal S512x512 .f32)
    (Wu : Vec Ideal S512x512 .f32) (bu : Vec Ideal S1x512 .f32) (Uu : Vec Ideal S512x512 .f32) (p : Fin 256) (g : Fin 512) :
    k0_pay2 (F := Ideal) (k0_pay8 (k0_pay5 x0 x1 Wi bi Ui)) (k0_pay9 (k0_pay6 x0 x1 Wo bo Uo)) (k0_pay10 (k0_pay4 x1) (k0_pay7 x0 Wu) bu Uu)
        (k0_pay15 x1 x2 (k0_pay11 (k0_pay3 x0) Wf bf) (k0_pay12 Uf) (k0_pay13 (k0_pay3 x0) x1 x2 Wf bf Uf) (k0_pay14 x1) (constant S256x512 .f32 0x00000000#32))
        (k0_pay16 x1 (k0_pay11 (k0_pay3 x0) Wf bf) (k0_pay12 Uf)) (k0_pay17 x2) (ix2 p g)
      = hidOf x0 x1 x2 (matOf Wi) (biasOf bi) (matOf Ui) (matOf Wf) (biasOf bf) (matOf Uf) (matOf Wo) (biasOf bo) (matOf Uo)
          (matOf Wu) (biasOf bu) (matOf Uu) (ix2 p g) := by
  unfold k0_pay2 k0_pay9
  rw [mulf_apply, logistic_apply, pay6_apply, tanh_apply, mem_apply]
  rfl

/-- The two stored blocks as whole functions of the loaded blocks. -/
theorem mem_eq (Wi : Vec Ideal S512x512 .f32) (bi : Vec Ideal S1x512 .f32) (Ui : Vec Ideal S512x512 .f32)
    (Wf : Vec Ideal S512x512 .f32) (bf : Vec Ideal S1x512 .f32) (Uf : Vec Ideal S512x512 .f32)
    (Wu : Vec Ideal S512x512 .f32) (bu : Vec Ideal S1x512 .f32) (Uu : Vec Ideal S512x512 .f32) :
    k0_pay1 (F := Ideal) (k0_pay8 (k0_pay5 x0 x1 Wi bi Ui)) (k0_pay10 (k0_pay4 x1) (k0_pay7 x0 Wu) bu Uu)
        (k0_pay15 x1 x2 (k0_pay11 (k0_pay3 x0) Wf bf) (k0_pay12 Uf) (k0_pay13 (k0_pay3 x0) x1 x2 Wf bf Uf) (k0_pay14 x1) (constant S256x512 .f32 0x00000000#32))
        (k0_pay16 x1 (k0_pay11 (k0_pay3 x0) Wf bf) (k0_pay12 Uf)) (k0_pay17 x2)
      = memOf x0 x1 x2 (matOf Wi) (biasOf bi) (matOf Ui) (matOf Wf) (biasOf bf) (matOf Uf) (matOf Wu) (biasOf bu) (matOf Uu) := by
  funext y
  obtain ⟨p, g, rfl⟩ : ∃ (p : Fin 256) (g : Fin 512), y = ix2 p g := ⟨y 0, y 1, eq_ix2 y⟩
  exact mem_apply x0 x1 x2 Wi bi Ui Wf bf Uf Wu bu Uu p g

theorem hid_eq (Wi : Vec Ideal S512x512 .f32) (bi : Vec Ideal S1x512 .f32) (Ui : Vec Ideal S512x512 .f32)
    (Wf : Vec Ideal S512x512 .f32) (bf : Vec Ideal S1x512 .f32) (Uf : Vec Ideal S512x512 .f32)
    (Wo : Vec Ideal S512x512 .f32) (bo : Vec Ideal S1x512 .f32) (Uo : Vec Ideal S512x512 .f32)
    (Wu : Vec Ideal S512x512 .f32) (bu : Vec Ideal S1x512 .f32) (Uu : Vec Ideal S512x512 .f32) :
    k0_pay2 (F := Ideal) (k0_pay8 (k0_pay5 x0 x1 Wi bi Ui)) (k0_pay9 (k0_pay6 x0 x1 Wo bo Uo)) (k0_pay10 (k0_pay4 x1) (k0_pay7 x0 Wu) bu Uu)
        (k0_pay15 x1 x2 (k0_pay11 (k0_pay3 x0) Wf bf) (k0_pay12 Uf) (k0_pay13 (k0_pay3 x0) x1 x2 Wf bf Uf) (k0_pay14 x1) (constant S256x512 .f32 0x00000000#32))
        (k0_pay16 x1 (k0_pay11 (k0_pay3 x0) Wf bf) (k0_pay12 Uf)) (k0_pay17 x2)
      = hidOf x0 x1 x2 (matOf Wi) (biasOf bi) (matOf Ui) (matOf Wf) (biasOf bf) (matOf Uf) (matOf Wo) (biasOf bo) (matOf Uo)
          (matOf Wu) (biasOf bu) (matOf Uu) := by
  funext y
  obtain ⟨p, g, rfl⟩ : ∃ (p : Fin 256) (g : Fin 512), y = ix2 p g := ⟨y 0, y 1, eq_ix2 y⟩
  exact hid_apply x0 x1 x2 Wi bi Ui Wf bf Uf Wo bo Uo Wu bu Uu p g

end Cert.TreeLstm.Block

end
-- ==== Proof.KernelArray.lean ====
/-
  From blocks to arrays: what the kernel's two result arrays hold after the run.

  The grid has 32 points; point `t` stages rows `256 t … 256 t + 255` of `x`, of every child's hidden state and of every
  child's memory, and the whole of each weight and bias (their block index is constantly zero), and writes back rows
  `256 t … 256 t + 255` of both results. The cell meets one batch row at a time, so what point `t` writes back is block `t`
  of the cell applied to the whole argument arrays; the 32 blocks tile the 8192 rows, so the result arrays end holding
  the cell of the arguments. The four biases reach the kernel recast from `[512]` to `[1, 512]`.
-/
import proofs.«138829_j22247930593470_1_alg».proof.Proof.Gen.KernelIdeal.Value
import proofs.«138829_j22247930593470_1_alg».proof.Proof.BlockCell
import Idealize.ShloMosaic.Lib.Pipeline.Value
import Idealize.ShloMosaic.Lib.StableHlo.Run
import Idealize.ShloMosaic.Lib.ValueLayout
import Idealize.ShloMosaic.Lib.Tactic

noncomputable section

namespace Cert.TreeLstm.Kernel

open Cert.KernelIdeal Cert.KernelIdeal.Gen Cert.TreeLstm Cert.TreeLstm.Block
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of the windows that move with the grid, decided over the 32 points: block `t` on the batch axis. -/
theorem idx_rows : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-- The weights' and biases' windows stay at block zero. -/
theorem idx_whole : ∀ t : Fin cfg0.N,
    (∀ a, win0_3.index t a = 0) ∧ (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0) ∧ (∀ a, win0_10.index t a = 0)
    ∧ (∀ a, win0_11.index t a = 0) ∧ (∀ a, win0_12.index t a = 0) ∧ (∀ a, win0_13.index t a = 0) ∧ (∀ a, win0_14.index t a = 0) :=
  (by decide +kernel : ∀ t : Fin grid0.N, _)

/-! ## The input blocks -/

theorem iblk3_eq (c : Dev nD) (t : Fin cfg0.N) : (iblk m c 3 t : Vec Ideal S512x512 .f32) = V m c main_arg3 := by
  have hz' : (fun a => win0_3.index t a * main_arg3.ty.shape.size a) = fun _ => 0 :=
    funext fun a => by rw [(idx_whole t).1 a]; exact Nat.zero_mul _
  exact Memref.read_access_unit_zero (Elt Ideal) main_arg3 hz' (fun a => by rw [congrFun hz' a]; simp) (V m c main_arg3)

theorem iblk4_eq (c : Dev nD) (t : Fin cfg0.N) : (iblk m c 4 t : Vec Ideal S1x512 .f32) = V m c main_v0 := by
  have hz' : (fun a => win0_4.index t a * main_v0.ty.shape.size a) = fun _ => 0 :=
    funext fun a => by rw [(idx_whole t).2.1 a]; exact Nat.zero_mul _
  exact Memref.read_access_unit_zero (Elt Ideal) main_v0 hz' (fun a => by rw [congrFun hz' a]; simp) (V m c main_v0)

theorem iblk5_eq (c : Dev nD) (t : Fin cfg0.N) : (iblk m c 5 t : Vec Ideal S512x512 .f32) = V m c main_arg5 := by
  have hz' : (fun a => win0_5.index t a * main_arg5.ty.shape.size a) = fun _ => 0 :=
    funext fun a => by rw [(idx_whole t).2.2.1 a]; exact Nat.zero_mul _
  exact Memref.read_access_unit_zero (Elt Ideal) main_arg5 hz' (fun a => by rw [congrFun hz' a]; simp) (V m c main_arg5)

theorem iblk6_eq (c : Dev nD) (t : Fin cfg0.N) : (iblk m c 6 t : Vec Ideal S512x512 .f32) = V m c main_arg6 := by
  have hz' : (fun a => win0_6.index t a * main_arg6.ty.shape.size a) = fun _ => 0 :=
    funext fun a => by rw [(idx_whole t).2.2.2.1 a]; exact Nat.zero_mul _
  exact Memref.read_access_unit_zero (Elt Ideal) main_arg6 hz' (fun a => by rw [congrFun hz' a]; simp) (V m c main_arg6)

theorem iblk7_eq (c : Dev nD) (t : Fin cfg0.N) : (iblk m c 7 t : Vec Ideal S1x512 .f32) = V m c main_v1 := by
  have hz' : (fun a => win0_7.index t a * main_v1.ty.shape.size a) = fun _ => 0 :=
    funext fun a => by rw [(idx_whole t).2.2.2.2.1 a]; exact Nat.zero_mul _
  exact Memref.read_access_unit_zero (Elt Ideal) main_v1 hz' (fun a => by rw [congrFun hz' a]; simp) (V m c main_v1)

theorem iblk8_eq (c : Dev nD) (t : Fin cfg0.N) : (iblk m c 8 t : Vec Ideal S512x512 .f32) = V m c main_arg8 := by
  have hz' : (fun a => win0_8.index t a * main_arg8.ty.shape.size a) = fun _ => 0 :=
    funext fun a => by rw [(idx_whole t).2.2.2.2.2.1 a]; exact Nat.zero_mul _
  exact Memref.read_access_unit_zero (Elt Ideal) main_arg8 hz' (fun a => by rw [congrFun hz' a]; simp) (V m c main_arg8)

theorem iblk9_eq (c : Dev nD) (t : Fin cfg0.N) : (iblk m c 9 t : Vec Ideal S512x512 .f32) = V m c main_arg9 := by
  have hz' : (fun a => win0_9.index t a * main_arg9.ty.shape.size a) = fun _ => 0 :=
    funext fun a => by rw [(idx_whole t).2.2.2.2.2.2.1 a]; exact Nat.zero_mul _
  exact Memref.read_access_unit_zero (Elt Ideal) main_arg9 hz' (fun a => by rw [congrFun hz' a]; simp) (V m c main_arg9)

theorem iblk10_eq (c : Dev nD) (t : Fin cfg0.N) : (iblk m c 10 t : Vec Ideal S1x512 .f32) = V m c main_v2 := by
  have hz' : (fun a => win0_10.index t a * main_v2.ty.shape.size a) = fun _ => 0 :=
    funext fun a => by rw [(idx_whole t).2.2.2.2.2.2.2.1 a]; exact Nat.zero_mul _
  exact Memref.read_access_unit_zero (Elt Ideal) main_v2 hz' (fun a => by rw [congrFun hz' a]; simp) (V m c main_v2)

theorem iblk11_eq (c : Dev nD) (t : Fin cfg0.N) : (iblk m c 11 t : Vec Ideal S512x512 .f32) = V m c main_arg11 := by
  have hz' : (fun a => win0_11.index t a * main_arg11.ty.shape.size a) = fun _ => 0 :=
    funext fun a => by rw [(idx_whole t).2.2.2.2.2.2.2.2.1 a]; exact Nat.zero_mul _
  exact Memref.read_access_unit_zero (Elt Ideal) main_arg11 hz' (fun a => by rw [congrFun hz' a]; simp) (V m c main_arg11)

theorem iblk12_eq (c : Dev nD) (t : Fin cfg0.N) : (iblk m c 12 t : Vec Ideal S512x512 .f32) = V m c main_arg12 := by
  have hz' : (fun a => win0_12.index t a * main_arg12.ty.shape.size a) = fun _ => 0 :=
    funext fun a => by rw [(idx_whole t).2.2.2.2.2.2.2.2.2.1 a]; exact Nat.zero_mul _
  exact Memref.read_access_unit_zero (Elt Ideal) main_arg12 hz' (fun a => by rw [congrFun hz' a]; simp) (V m c main_arg12)

theorem iblk13_eq (c : Dev nD) (t : Fin cfg0.N) : (iblk m c 13 t : Vec Ideal S1x512 .f32) = V m c main_v3 := by
  have hz' : (fun a => win0_13.index t a * main_v3.ty.shape.size a) = fun _ => 0 :=
    funext fun a => by rw [(idx_whole t).2.2.2.2.2.2.2.2.2.2.1 a]; exact Nat.zero_mul _
  exact Memref.read_access_unit_zero (Elt Ideal) main_v3 hz' (fun a => by rw [congrFun hz' a]; simp) (V m c main_v3)

theorem iblk14_eq (c : Dev nD) (t : Fin cfg0.N) : (iblk m c 14 t : Vec Ideal S512x512 .f32) = V m c main_arg14 := by
  have hz' : (fun a => win0_14.index t a * main_arg14.ty.shape.size a) = fun _ => 0 :=
    funext fun a => by rw [(idx_whole t).2.2.2.2.2.2.2.2.2.2.2 a]; exact Nat.zero_mul _
  exact Memref.read_access_unit_zero (Elt Ideal) main_arg14 hz' (fun a => by rw [congrFun hz' a]; simp) (V m c main_arg14)

/-- Rows `256 t + p` of `x`. -/
theorem iblk0_apply (c : Dev nD) (t : Fin cfg0.N) (p : Fin 256) (k : Fin 512) (b : Fin 8192) (hb : b.val = t.val * 256 + p.val) :
    (iblk m c 0 t : Vec Ideal S256x512 .f32) (ix2 p k) = (V m c main_arg0 : S8192x512.Idx → EReal) (ix2 b k) := by
  obtain ⟨e0, e1, -⟩ := idx_rows t
  unfold iblk
  rw [View.read_apply]
  show (V m c main_arg0 : S8192x512.Idx → EReal) _ = _
  refine congrArg (V m c main_arg0 : S8192x512.Idx → EReal) (funext fun a => Fin.ext ?_)
  match a with
  | ⟨0, _⟩ => show win0_0.index t 0 * 256 + 1 * p.val = b.val; rw [e0, hb]; omega
  | ⟨1, _⟩ => show win0_0.index t 1 * 512 + 1 * k.val = k.val; rw [e1]; omega

/-- Rows `256 t + p` of each child's hidden state. -/
theorem iblk1_apply (c : Dev nD) (t : Fin cfg0.N) (j : Fin 8) (p : Fin 256) (k : Fin 512) (b : Fin 8192) (hb : b.val = t.val * 256 + p.val) :
    (iblk m c 1 t : Vec Ideal S8x256x512 .f32) (ix3 j p k) = (V m c main_arg1 : S8x8192x512.Idx → EReal) (ix3 j b k) := by
  obtain ⟨-, -, e0, e1, e2, -⟩ := idx_rows t
  unfold iblk
  rw [View.read_apply]
  show (V m c main_arg1 : S8x8192x512.Idx → EReal) _ = _
  refine congrArg (V m c main_arg1 : S8x8192x512.Idx → EReal) (funext fun a => Fin.ext ?_)
  match a with
  | ⟨0, _⟩ => show win0_1.index t 0 * 8 + 1 * j.val = j.val; rw [e0]; omega
  | ⟨1, _⟩ => show win0_1.index t 1 * 256 + 1 * p.val = b.val; rw [e1, hb]; omega
  | ⟨2, _⟩ => show win0_1.index t 2 * 512 + 1 * k.val = k.val; rw [e2]; omega

/-- Rows `256 t + p` of each child's memory. -/
theorem iblk2_apply (c : Dev nD) (t : Fin cfg0.N) (j : Fin 8) (p : Fin 256) (k : Fin 512) (b : Fin 8192) (hb : b.val = t.val * 256 + p.val) :
    (iblk m c 2 t : Vec Ideal S8x256x512 .f32) (ix3 j p k) = (V m c main_arg2 : S8x8192x512.Idx → EReal) (ix3 j b k) := by
  obtain ⟨-, -, -, -, -, e0, e1, e2, -⟩ := idx_rows t
  unfold iblk
  rw [View.read_apply]
  show (V m c main_arg2 : S8x8192x512.Idx → EReal) _ = _
  refine congrArg (V m c main_arg2 : S8x8192x512.Idx → EReal) (funext fun a => Fin.ext ?_)
  match a with
  | ⟨0, _⟩ => show win0_2.index t 0 * 8 + 1 * j.val = j.val; rw [e0]; omega
  | ⟨1, _⟩ => show win0_2.index t 1 * 256 + 1 * p.val = b.val; rw [e1, hb]; omega
  | ⟨2, _⟩ => show win0_2.index t 2 * 512 + 1 * k.val = k.val; rw [e2]; omega

/-! ## The biases: `[512]` arguments recast to `[1, 512]` before the call -/

theorem bias_i (c : Dev nD) : biasOf (V m c main_v0) = vecOf (m ((c : Thread nD τ).loc main_arg4)) := by
  have e : (V m c main_v0 : S1x512.Idx → EReal) = shapeCast S1x512 (m ((c : Thread nD τ).loc main_arg4)) shapeCasts_S512_S1x512 := by
    dsimp only [V, hostOps0]; after_results; rfl
  funext g
  show (V m c main_v0 : S1x512.Idx → EReal) (ix2 (0 : Fin 1) g) = _
  rw [e]
  exact ValueIdx.shapeCast_a_1a_apply _ _ 0 g

theorem bias_f (c : Dev nD) : biasOf (V m c main_v1) = vecOf (m ((c : Thread nD τ).loc main_arg7)) := by
  have e : (V m c main_v1 : S1x512.Idx → EReal) = shapeCast S1x512 (m ((c : Thread nD τ).loc main_arg7)) shapeCasts_S512_S1x512 := by
    dsimp only [V, hostOps0]; after_results; rfl
  funext g
  show (V m c main_v1 : S1x512.Idx → EReal) (ix2 (0 : Fin 1) g) = _
  rw [e]
  exact ValueIdx.shapeCast_a_1a_apply _ _ 0 g

theorem bias_o (c : Dev nD) : biasOf (V m c main_v2) = vecOf (m ((c : Thread nD τ).loc main_arg10)) := by
  have e : (V m c main_v2 : S1x512.Idx → EReal) = shapeCast S1x512 (m ((c : Thread nD τ).loc main_arg10)) shapeCasts_S512_S1x512 := by
    dsimp only [V, hostOps0]; after_results; rfl
  funext g
  show (V m c main_v2 : S1x512.Idx → EReal) (ix2 (0 : Fin 1) g) = _
  rw [e]
  exact ValueIdx.shapeCast_a_1a_apply _ _ 0 g

theorem bias_u (c : Dev nD) : biasOf (V m c main_v3) = vecOf (m ((c : Thread nD τ).loc main_arg13)) := by
  have e : (V m c main_v3 : S1x512.Idx → EReal) = shapeCast S1x512 (m ((c : Thread nD τ).loc main_arg13)) shapeCasts_S512_S1x512 := by
    dsimp only [V, hostOps0]; after_results; rfl
  funext g
  show (V m c main_v3 : S1x512.Idx → EReal) (ix2 (0 : Fin 1) g) = _
  rw [e]
  exact ValueIdx.shapeCast_a_1a_apply _ _ 0 g

/-! ## The result arrays -/

/-- The new memory of the whole batch, from the arguments as launched. -/
def memArr (c : Dev nD) : S8192x512.Idx → EReal :=
  memOf (m ((c : Thread nD τ).loc main_arg0)) (m ((c : Thread nD τ).loc main_arg1)) (m ((c : Thread nD τ).loc main_arg2))
    (matOf (m ((c : Thread nD τ).loc main_arg3))) (vecOf (m ((c : Thread nD τ).loc main_arg4))) (matOf (m ((c : Thread nD τ).loc main_arg5)))
    (matOf (m ((c : Thread nD τ).loc main_arg6))) (vecOf (m ((c : Thread nD τ).loc main_arg7))) (matOf (m ((c : Thread nD τ).loc main_arg8)))
    (matOf (m ((c : Thread nD τ).loc main_arg12))) (vecOf (m ((c : Thread nD τ).loc main_arg13))) (matOf (m ((c : Thread nD τ).loc main_arg14)))

/-- The new hidden state of the whole batch, from the arguments as launched. -/
def hidArr (c : Dev nD) : S8192x512.Idx → EReal :=
  hidOf (m ((c : Thread nD τ).loc main_arg0)) (m ((c : Thread nD τ).loc main_arg1)) (m ((c : Thread nD τ).loc main_arg2))
    (matOf (m ((c : Thread nD τ).loc main_arg3))) (vecOf (m ((c : Thread nD τ).loc main_arg4))) (matOf (m ((c : Thread nD τ).loc main_arg5)))
    (matOf (m ((c : Thread nD τ).loc main_arg6))) (vecOf (m ((c : Thread nD τ).loc main_arg7))) (matOf (m ((c : Thread nD τ).loc main_arg8)))
    (matOf (m ((c : Thread nD τ).loc main_arg9))) (vecOf (m ((c : Thread nD τ).loc main_arg10))) (matOf (m ((c : Thread nD τ).loc main_arg11)))
    (matOf (m ((c : Thread nD τ).loc main_arg12))) (vecOf (m ((c : Thread nD τ).loc main_arg13))) (matOf (m ((c : Thread nD τ).loc main_arg14)))

/-- WHAT POINT `t` WRITES BACK to the memory result is block `t` of `memArr`. -/
theorem flushed16_eq (c : Dev nD) (t : Fin cfg0.N) :
    (dats m 0 c).flushed 16 t = ((cfg0.win 16).blk t).view.read (Elt Ideal) (memArr m c) := by
  rw [Cert.KernelIdeal.Value.flushed16]
  unfold out0_16
  rw [View.canon_unit_zero hz2]
  simp only [View.ld_unit_zero (S := S256x512) hz2, View.ld_unit_zero (S := S8x256x512) hz3, View.ld_unit_zero (S := S512x512) hz2,
    View.ld_unit_zero (S := S1x512) hz2]
  rw [mem_eq (iblk m c 0 t) (iblk m c 1 t) (iblk m c 2 t) (iblk m c 3 t) (iblk m c 4 t) (iblk m c 5 t) (iblk m c 6 t) (iblk m c 7 t)
    (iblk m c 8 t) (iblk m c 12 t) (iblk m c 13 t) (iblk m c 14 t)]
  rw [iblk3_eq, iblk4_eq, iblk5_eq, iblk6_eq, iblk7_eq, iblk8_eq, iblk12_eq, iblk13_eq, iblk14_eq, bias_i, bias_f, bias_u,
    V_main_arg3, V_main_arg5, V_main_arg6, V_main_arg8, V_main_arg12, V_main_arg14]
  obtain ⟨-, -, -, -, -, -, -, -, -, -, e0, e1⟩ := idx_rows t
  unfold memArr
  funext y
  rw [View.read_apply]
  refine memOf_block (iblk m c 0 t) (iblk m c 1 t) (iblk m c 2 t) (m ((c : Thread nD τ).loc main_arg0)) (m ((c : Thread nD τ).loc main_arg1))
    (m ((c : Thread nD τ).loc main_arg2)) _ _ _ _ _ _ _ _ _ ((cfg0.win 16).xinj (grid0.coords t) y) (((cfg0.win 16).blk t).view.emb y) ?_ ?_ ?_ ?_
  · exact Fin.ext (by show (y 1).val = win0_16.index t 1 * 512 + 1 * (y 1).val; rw [e1]; omega)
  · intro k
    rw [← V_main_arg0 m c]
    exact iblk0_apply m c t ((cfg0.win 16).xinj (grid0.coords t) y 0) k (((cfg0.win 16).blk t).view.emb y 0) (by show win0_16.index t 0 * 256 + 1 * (y 0).val = t.val * 256 + (y 0).val; rw [e0]; omega)
  · intro j k
    rw [← V_main_arg1 m c]
    exact iblk1_apply m c t j ((cfg0.win 16).xinj (grid0.coords t) y 0) k (((cfg0.win 16).blk t).view.emb y 0) (by show win0_16.index t 0 * 256 + 1 * (y 0).val = t.val * 256 + (y 0).val; rw [e0]; omega)
  · intro j
    rw [← V_main_arg2 m c]
    refine (iblk2_apply m c t j ((cfg0.win 16).xinj (grid0.coords t) y 0) ((cfg0.win 16).xinj (grid0.coords t) y 1) (((cfg0.win 16).blk t).view.emb y 0) (by show win0_16.index t 0 * 256 + 1 * (y 0).val = t.val * 256 + (y 0).val; rw [e0]; omega)).trans ?_
    exact congrArg _ (funext fun a => Fin.ext (by
      match a with
      | ⟨0, _⟩ => rfl
      | ⟨1, _⟩ => rfl
      | ⟨2, _⟩ => show (y 1).val = win0_16.index t 1 * 512 + 1 * (y 1).val; rw [e1]; omega))

/-- WHAT POINT `t` WRITES BACK to the hidden-state result is block `t` of `hidArr`. -/
theorem flushed15_eq (c : Dev nD) (t : Fin cfg0.N) :
    (dats m 0 c).flushed 15 t = ((cfg0.win 15).blk t).view.read (Elt Ideal) (hidArr m c) := by
  rw [Cert.KernelIdeal.Value.flushed15]
  unfold out0_15
  rw [View.canon_unit_zero hz2]
  simp only [View.ld_unit_zero (S := S256x512) hz2, View.ld_unit_zero (S := S8x256x512) hz3, View.ld_unit_zero (S := S512x512) hz2,
    View.ld_unit_zero (S := S1x512) hz2]
  rw [hid_eq (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)]
  rw [iblk3_eq, iblk4_eq, iblk5_eq, iblk6_eq, iblk7_eq, iblk8_eq, iblk9_eq, iblk10_eq, iblk11_eq, iblk12_eq, iblk13_eq, iblk14_eq,
    bias_i, bias_f, bias_o, bias_u,
    V_main_arg3, V_main_arg5, V_main_arg6, V_main_arg8, V_main_arg9, V_main_arg11, V_main_arg12, V_main_arg14]
  obtain ⟨-, -, -, -, -, -, -, -, e0, e1, -⟩ := idx_rows t
  unfold hidArr
  funext y
  rw [View.read_apply]
  refine hidOf_block (iblk m c 0 t) (iblk m c 1 t) (iblk m c 2 t) (m ((c : Thread nD τ).loc main_arg0)) (m ((c : Thread nD τ).loc main_arg1))
    (m ((c : Thread nD τ).loc main_arg2)) _ _ _ _ _ _ _ _ _ _ _ _ ((cfg0.win 15).xinj (grid0.coords t) y) (((cfg0.win 15).blk t).view.emb y) ?_ ?_ ?_ ?_
  · exact Fin.ext (by show (y 1).val = win0_15.index t 1 * 512 + 1 * (y 1).val; rw [e1]; omega)
  · intro k
    rw [← V_main_arg0 m c]
    exact iblk0_apply m c t ((cfg0.win 15).xinj (grid0.coords t) y 0) k (((cfg0.win 15).blk t).view.emb y 0) (by show win0_15.index t 0 * 256 + 1 * (y 0).val = t.val * 256 + (y 0).val; rw [e0]; omega)
  · intro j k
    rw [← V_main_arg1 m c]
    exact iblk1_apply m c t j ((cfg0.win 15).xinj (grid0.coords t) y 0) k (((cfg0.win 15).blk t).view.emb y 0) (by show win0_15.index t 0 * 256 + 1 * (y 0).val = t.val * 256 + (y 0).val; rw [e0]; omega)
  · intro j
    rw [← V_main_arg2 m c]
    refine (iblk2_apply m c t j ((cfg0.win 15).xinj (grid0.coords t) y 0) ((cfg0.win 15).xinj (grid0.coords t) y 1) (((cfg0.win 15).blk t).view.emb y 0) (by show win0_15.index t 0 * 256 + 1 * (y 0).val = t.val * 256 + (y 0).val; rw [e0]; omega)).trans ?_
    exact congrArg _ (funext fun a => Fin.ext (by
      match a with
      | ⟨0, _⟩ => rfl
      | ⟨1, _⟩ => rfl
      | ⟨2, _⟩ => show (y 1).val = win0_15.index t 1 * 512 + 1 * (y 1).val; rw [e1]; omega))

/-! ## The 32 blocks tile the batch -/

theorem mem_blk15 (t : Fin cfg0.N) (i : S8192x512.Idx) :
    i ∈ ((cfg0.win 15).blk t).view.set ↔ ∀ a : Fin 2, win0_15.index t a * S256x512.size a ≤ (i a).val ∧ (i a).val < win0_15.index t a * S256x512.size a + S256x512.size a := by
  show i ∈ ((View.whole main_v4_0).slice (win0_15.rect t)).set ↔ _
  rw [View.set_slice_whole, Rect.mem_set_unit]
  exact Iff.rfl

theorem mem_blk16 (t : Fin cfg0.N) (i : S8192x512.Idx) :
    i ∈ ((cfg0.win 16).blk t).view.set ↔ ∀ a : Fin 2, win0_16.index t a * S256x512.size a ≤ (i a).val ∧ (i a).val < win0_16.index t a * S256x512.size a + S256x512.size a := by
  show i ∈ ((View.whole main_v4_1).slice (win0_16.rect t)).set ↔ _
  rw [View.set_slice_whole, Rect.mem_set_unit]
  exact Iff.rfl

/-- Row `r` lies in the block of point `r / 256`. -/
theorem cover15 (i : S8192x512.Idx) : ∃ t : Fin cfg0.N, (cfg0.win 15).flush t = true ∧ i ∈ ((cfg0.win 15).blk t).view.set := by
  have hi0 : (i 0).val < 8192 := (i 0).isLt
  have hi1 : (i 1).val < 512 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, e0, e1, -⟩ := idx_rows t
  refine ⟨t, flush0_15 t, (mem_blk15 t i).mpr fun a => ?_⟩
  match a with
  | ⟨0, _⟩ => show win0_15.index t 0 * 256 ≤ (i 0).val ∧ (i 0).val < win0_15.index t 0 * 256 + 256; rw [e0, ht]; omega
  | ⟨1, _⟩ => show win0_15.index t 1 * 512 ≤ (i 1).val ∧ (i 1).val < win0_15.index t 1 * 512 + 512; rw [e1]; omega

theorem cover16 (i : S8192x512.Idx) : ∃ t : Fin cfg0.N, (cfg0.win 16).flush t = true ∧ i ∈ ((cfg0.win 16).blk t).view.set := by
  have hi0 : (i 0).val < 8192 := (i 0).isLt
  have hi1 : (i 1).val < 512 := (i 1).isLt
  have hN : cfg0.N = 32 := N_0
  obtain ⟨t, ht⟩ : ∃ t : Fin cfg0.N, t.val = (i 0).val / 256 := ⟨⟨(i 0).val / 256, by rw [hN]; omega⟩, rfl⟩
  obtain ⟨-, -, -, -, -, -, -, -, -, -, e0, e1⟩ := idx_rows t
  refine ⟨t, flush0_16 t, (mem_blk16 t i).mpr fun a => ?_⟩
  match a with
  | ⟨0, _⟩ => show win0_16.index t 0 * 256 ≤ (i 0).val ∧ (i 0).val < win0_16.index t 0 * 256 + 256; rw [e0, ht]; omega
  | ⟨1, _⟩ => show win0_16.index t 1 * 512 ≤ (i 1).val ∧ (i 1).val < win0_16.index t 1 * 512 + 512; rw [e1]; omega

/-- So both result arrays end holding the cell of the arguments. -/
theorem final15 (c : Dev nD) : (dats m 0 c).arrAt 15 cfg0.N = hidArr m c :=
  (dats m 0 c).arrAt_eq_of_cover 15 (hidArr m c) (fun t _ => flushed15_eq m c t) cover15

theorem final16 (c : Dev nD) : (dats m 0 c).arrAt 16 cfg0.N = memArr m c :=
  (dats m 0 c).arrAt_eq_of_cover 16 (memArr m c) (fun t _ => flushed16_eq m c t) cover16

/-- THE KERNEL'S RUN, READ: every weakly fair execution terminates with the hidden-state result at `hidArr`, the memory
    result at `memArr`, and every argument as launched. -/
theorem run : θ_run defs (onTc (τ := τ) (main (F := Ideal))) ⟨m, fun _ => 0, ρ⟩ fun r => ∀ c : Dev nD,
      r.2.mem ((c : Thread nD τ).loc main_v4_0) = hidArr m c
      ∧ r.2.mem ((c : Thread nD τ).loc main_v4_1) = memArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Cert.KernelIdeal.Value.run_blocks m ρ)

end Cert.TreeLstm.Kernel

end
-- ==== Proof.RefCell.lean ====
/-
  What the reference computes, entry by entry: the tree-LSTM cell of the batch's rows.

  The reference sums the children's hidden rows with an explicit zero start, applies each linear layer as a product
  with the TRANSPOSED weight (so entry `(b, g)` is the inner product of row `b` with the weight's row `g`), writes the
  logistic function out as `1 / (1 + e^(-z))`, which over the extended reals IS the logistic function, computes all
  eight forget gates at once over `[8, 8192, 512]`, and sums the gated memories over the children with a zero start.
-/
import proofs.«138829_j22247930593470_1_alg».proof.Proof.Gen.ReferenceIdeal.Read
import proofs.«138829_j22247930593470_1_alg».proof.Proof.Cell

noncomputable section

namespace Cert.TreeLstm.Ref

open Cert.ReferenceIdeal Cert.ReferenceIdeal.Read Cert.TreeLstm
open Idealize.ShloMosaic Idealize.ShloMosaic.TcCoe Idealize.ShloMosaic.ValueIdx

/-- The float word of `1.0` denotes the extended real one. -/
theorem ofBits_one_f32 : Ideal.ofBits .f32 0x3F800000#32 = 1 := by
  simp [Ideal.ofBits, Ideal.ieee, -EReal.coe_mul]
  norm_num

variable (x0 : (⟨S8192x512, .f32⟩ : BufTy).Contents (Elt Ideal)) (x1 x2 : (⟨S8x8192x512, .f32⟩ : BufTy).Contents (Elt Ideal))

/-- The children's hidden states summed, at `(b, k)`. -/
theorem v0_apply (b : Fin 8192) (k : Fin 512) : val_main_v0 (F := Ideal) x1 (ix2 b k) = childSum (rowsOf x1 b) k := by
  rw [val_main_v0_apply, val_main_cst_apply]
  show Ideal.ofBits .f32 0x00000000#32 + _ = _
  rw [Ideal.ofBits_zero_f32, zero_add]
  unfold childSum
  refine Finset.sum_congr rfl fun j _ => congrArg x1 (funext fun a => Fin.ext ?_)
  match a with
  | ⟨0, _⟩ => rfl
  | ⟨1, _⟩ => rfl
  | ⟨2, _⟩ => rfl

theorem v0_row (b : Fin 8192) : rowOf (val_main_v0 (F := Ideal) x1) b = childSum (rowsOf x1 b) :=
  funext fun k => v0_apply x1 b k

/-- A product with a transposed weight, at `(b, g)`: row `b` of the operand against row `g` of the weight. -/
theorem lin_apply (X : (⟨S8192x512, .f32⟩ : BufTy).Contents (Elt Ideal)) (W : (⟨S512x512, .f32⟩ : BufTy).Contents (Elt Ideal))
    (b : Fin 8192) (g : Fin 512) : val_main_v2 (F := Ideal) X W (ix2 b g) = dotRow (rowOf X b) (matOf W) g := by
  rw [val_main_v2_apply]
  unfold dotRow
  refine Finset.sum_congr rfl fun k _ => ?_
  rw [val_main_v1_apply]
  have el : lidx_main_v2 (ix2 b g) k = ix2 b k := funext fun a => Fin.ext (by match a with | ⟨0, _⟩ => rfl | ⟨1, _⟩ => rfl)
  have er : idx_main_v1 (ridx_main_v2 (ix2 b g) k) = ix2 g k := funext fun a => Fin.ext (by match a with | ⟨0, _⟩ => rfl | ⟨1, _⟩ => rfl)
  rw [el, er]

/-- A bias broadcast over the batch, at `(b, g)`. -/
theorem bias_apply (bb : (⟨S512, .f32⟩ : BufTy).Contents (Elt Ideal)) (b : Fin 8192) (g : Fin 512) :
    val_main_v4 (F := Ideal) bb (ix2 b g) = vecOf bb g := by
  rw [val_main_v4_apply, val_main_v3_apply]
  exact congrArg bb (funext fun a => Fin.ext (by match a with | ⟨0, _⟩ => rfl))

/-- A gate's pre-activation over the summed children (input, output and update share this shape). -/
theorem gate_apply (W : (⟨S512x512, .f32⟩ : BufTy).Contents (Elt Ideal)) (bb : (⟨S512, .f32⟩ : BufTy).Contents (Elt Ideal))
    (U : (⟨S512x512, .f32⟩ : BufTy).Contents (Elt Ideal)) (b : Fin 8192) (g : Fin 512) :
    val_main_v8 (F := Ideal) x0 x1 W bb U (ix2 b g)
      = gatePre (rowOf x0 b) (childSum (rowsOf x1 b)) (matOf W) (vecOf bb) (matOf U) g := by
  rw [val_main_v8_apply, val_main_v5_apply, lin_apply, bias_apply]
  rw [show val_main_v7 (F := Ideal) x1 U = val_main_v2 (F := Ideal) (val_main_v0 (F := Ideal) x1) U from rfl, lin_apply, v0_row]
  rfl

/-- The logistic function as the reference spells it, over the gate's pre-activation. -/
theorem sigm_apply (W : (⟨S512x512, .f32⟩ : BufTy).Contents (Elt Ideal)) (bb : (⟨S512, .f32⟩ : BufTy).Contents (Elt Ideal))
    (U : (⟨S512x512, .f32⟩ : BufTy).Contents (Elt Ideal)) (i : S8192x512.Idx) :
    val_main_v14 (F := Ideal) x0 x1 W bb U i = Ideal.logistic (val_main_v8 (F := Ideal) x0 x1 W bb U i) := by
  rw [val_main_v14_apply, val_main_v13_apply, val_main_v12_apply, val_main_v11_apply, val_main_v10_apply, val_main_v9_apply,
    val_main_cst_0_apply, val_main_cst_1_apply]
  show Ideal.div (Ideal.ofBits .f32 0x3F800000#32) (Ideal.ofBits .f32 0x3F800000#32 + Ideal.exp (-_)) = _
  rw [ofBits_one_f32]
  rfl

/-- Child `j`'s forget gate's pre-activation, at `(j, b, g)`: the shared part `⟨x, W_f g⟩ + b_f g`, broadcast over the
    children, plus the child's own `⟨ch j, U_f g⟩`. -/
theorem fpre_apply (W : (⟨S512x512, .f32⟩ : BufTy).Contents (Elt Ideal)) (bb : (⟨S512, .f32⟩ : BufTy).Contents (Elt Ideal))
    (U : (⟨S512x512, .f32⟩ : BufTy).Contents (Elt Ideal)) (j : Fin 8) (b : Fin 8192) (g : Fin 512) :
    val_main_v46 (F := Ideal) x0 x1 W bb U (ix3 j b g)
      = gatePre (rowOf x0 b) (rowsOf x1 b j) (matOf W) (vecOf bb) (matOf U) g := by
  rw [val_main_v46_apply, val_main_v45_apply, val_main_v43_apply, val_main_v44_apply]
  rw [show val_main_v42 (F := Ideal) x0 W bb = val_main_v5 (F := Ideal) x0 W bb from rfl]
  have ei : idx_main_v43 (idx_main_v45 (ix3 j b g)) = ix2 b g :=
    funext fun a => Fin.ext (by match a with | ⟨0, _⟩ => rfl | ⟨1, _⟩ => rfl)
  rw [ei, val_main_v5_apply, lin_apply, bias_apply]
  have hsum : (∑ k : Fin 512, x1 (lidx_main_v44 (ix3 j b g) k) * U (ridx_main_v44 (ix3 j b g) k))
      = dotRow (rowsOf x1 b j) (matOf U) g := by
    unfold dotRow
    refine Finset.sum_congr rfl fun k _ => ?_
    have el : lidx_main_v44 (ix3 j b g) k = ix3 j b k :=
      funext fun a => Fin.ext (by match a with | ⟨0, _⟩ => rfl | ⟨1, _⟩ => rfl | ⟨2, _⟩ => rfl)
    have er : ridx_main_v44 (ix3 j b g) k = ix2 g k :=
      funext fun a => Fin.ext (by match a with | ⟨0, _⟩ => rfl | ⟨1, _⟩ => rfl)
    rw [el, er]
  rw [hsum]
  rfl

/-- The logistic function as the reference spells it, over the forget gates' pre-activations. -/
theorem fsigm_apply (W : (⟨S512x512, .f32⟩ : BufTy).Contents (Elt Ideal)) (bb : (⟨S512, .f32⟩ : BufTy).Contents (Elt Ideal))
    (U : (⟨S512x512, .f32⟩ : BufTy).Contents (Elt Ideal)) (i : S8x8192x512.Idx) :
    val_main_v52 (F := Ideal) x0 x1 W bb U i = Ideal.logistic (val_main_v46 (F := Ideal) x0 x1 W bb U i) := by
  rw [val_main_v52_apply, val_main_v51_apply, val_main_v50_apply, val_main_v49_apply, val_main_v48_apply, val_main_v47_apply,
    val_main_cst_4_apply, val_main_cst_5_apply]
  show Ideal.div (Ideal.ofBits .f32 0x3F800000#32) (Ideal.ofBits .f32 0x3F800000#32 + Ideal.exp (-_)) = _
  rw [ofBits_one_f32]
  rfl

variable (x3 : (⟨S512x512, .f32⟩ : BufTy).Contents (Elt Ideal)) (x4 : (⟨S512, .f32⟩ : BufTy).Contents (Elt Ideal))
  (x5 x6 : (⟨S512x512, .f32⟩ : BufTy).Contents (Elt Ideal)) (x7 : (⟨S512, .f32⟩ : BufTy).Contents (Elt Ideal))
  (x8 x9 : (⟨S512x512, .f32⟩ : BufTy).Contents (Elt Ideal)) (x10 : (⟨S512, .f32⟩ : BufTy).Contents (Elt Ideal))
  (x11 x12 : (⟨S512x512, .f32⟩ : BufTy).Contents (Elt Ideal)) (x13 : (⟨S512, .f32⟩ : BufTy).Contents (Elt Ideal))
  (x14 : (⟨S512x512, .f32⟩ : BufTy).Contents (Elt Ideal))

/-- THE REFERENCE'S NEW MEMORY is the cell's memory of the batch's rows. -/
theorem mem_apply (b : Fin 8192) (g : Fin 512) :
    val_main_v56 (F := Ideal) x0 x1 x2 x3 x4 x5 x6 x7 x8 x12 x13 x14 (ix2 b g)
      = memOf x0 x1 x2 (matOf x3) (vecOf x4) (matOf x5) (matOf x6) (vecOf x7) (matOf x8) (matOf x12) (vecOf x13) (matOf x14) (ix2 b g) := by
  have hterm : ∀ k : Fin 8, val_main_v54 (F := Ideal) x0 x1 x2 x6 x7 x8 (idx_main_v55 (ix2 b g) k)
      = Ideal.logistic (gatePre (rowOf x0 b) (rowsOf x1 b k) (matOf x6) (vecOf x7) (matOf x8) g) * colOf x2 b g k := by
    intro k
    have ek : idx_main_v55 (ix2 b g) k = ix3 k b g :=
      funext fun a => Fin.ext (by match a with | ⟨0, _⟩ => rfl | ⟨1, _⟩ => rfl | ⟨2, _⟩ => rfl)
    rw [ek, val_main_v54_apply, fsigm_apply, fpre_apply]
    rfl
  rw [val_main_v56_apply, val_main_v53_apply, sigm_apply, gate_apply, val_main_v37_apply,
    show val_main_v36 (F := Ideal) x0 x1 x12 x13 x14 = val_main_v8 (F := Ideal) x0 x1 x12 x13 x14 from rfl, gate_apply,
    val_main_v55_apply, val_main_cst_6_apply, Finset.sum_congr rfl fun k _ => hterm k]
  show _ * Ideal.tanh _ + (Ideal.ofBits .f32 0x00000000#32 + _) = _
  rw [Ideal.ofBits_zero_f32, zero_add]
  rfl

/-- THE REFERENCE'S NEW HIDDEN STATE is the cell's hidden state of the batch's rows. -/
theorem hid_apply (b : Fin 8192) (g : Fin 512) :
    val_main_v58 (F := Ideal) x0 x1 x2 x3 x4 x5 x6 x7 x8 x9 x10 x11 x12 x13 x14 (ix2 b g)
      = hidOf x0 x1 x2 (matOf x3) (vecOf x4) (matOf x5) (matOf x6) (vecOf x7) (matOf x8) (matOf x9) (vecOf x10) (matOf x11)
          (matOf x12) (vecOf x13) (matOf x14) (ix2 b g) := by
  rw [val_main_v58_apply, val_main_v57_apply, mem_apply,
    show val_main_v28 (F := Ideal) x0 x1 x9 x10 x11 = val_main_v14 (F := Ideal) x0 x1 x9 x10 x11 from rfl, sigm_apply, gate_apply]
  rfl

/-- The two results as whole arrays. -/
theorem mem_eq : val_main_v56 (F := Ideal) x0 x1 x2 x3 x4 x5 x6 x7 x8 x12 x13 x14
    = memOf x0 x1 x2 (matOf x3) (vecOf x4) (matOf x5) (matOf x6) (vecOf x7) (matOf x8) (matOf x12) (vecOf x13) (matOf x14) := by
  funext i
  obtain ⟨b, g, rfl⟩ : ∃ (b : Fin 8192) (g : Fin 512), i = ix2 b g := ⟨i 0, i 1, eq_ix2 i⟩
  exact mem_apply x0 x1 x2 x3 x4 x5 x6 x7 x8 x12 x13 x14 b g

theorem hid_eq : val_main_v58 (F := Ideal) x0 x1 x2 x3 x4 x5 x6 x7 x8 x9 x10 x11 x12 x13 x14
    = hidOf x0 x1 x2 (matOf x3) (vecOf x4) (matOf x5) (matOf x6) (vecOf x7) (matOf x8) (matOf x9) (vecOf x10) (matOf x11)
        (matOf x12) (vecOf x13) (matOf x14) := by
  funext i
  obtain ⟨b, g, rfl⟩ : ∃ (b : Fin 8192) (g : Fin 512), i = ix2 b g := ⟨i 0, i 1, eq_ix2 i⟩
  exact hid_apply x0 x1 x2 x3 x4 x5 x6 x7 x8 x9 x10 x11 x12 x13 x14 b g

end Cert.TreeLstm.Ref

end
-- ==== Proof.lean ====
/-
  A child-sum tree-LSTM cell over a batch of 8192 rows, hidden width 512, eight children per node: a Pallas kernel
  gridded over 32 blocks of 256 rows against plain jnp.

  Both programs compute, for every batch row and output column `g`,

    i, o = σ(⟨x, W g⟩ + b g + ⟨∑ⱼ chⱼ, U g⟩),   u = tanh(⟨x, W_u g⟩ + b_u g + ⟨∑ⱼ chⱼ, U_u g⟩),
    fⱼ = σ((⟨x, W_f g⟩ + b_f g) + ⟨chⱼ, U_f g⟩),   c = i · u + ∑ⱼ fⱼ · ccⱼ,   h = o · tanh c

  (`Cell.lean`). The kernel narrows its matrix operands to bf16, which over the extended reals changes nothing, takes
  the products against the weights' rows directly, uses the logistic function as one operation, and adds the eight
  gated memories one after the other from zero (`BlockOps.lean`, `BlockCell.lean`); each grid point sees 256 rows, and
  the cell meets one row at a time, so the 32 written blocks are the cell of the whole arrays (`KernelArray.lean`).
  The reference transposes the weights before its products, spells the logistic function as `1 / (1 + e^(-z))`,
  which over the extended reals is the same function, and sums over the children with a zero start
  (`RefCell.lean`). The two differ only in the order of additions of extended reals, which commute and associate,
  and in zeros added: no finiteness of the inputs is used.
-/
import proofs.«138829_j22247930593470_1_alg».proof.Defs
import proofs.«138829_j22247930593470_1_alg».proof.Proof.Gen.Kernel
import proofs.«138829_j22247930593470_1_alg».proof.Proof.Gen.Kernel.Skeleton
import proofs.«138829_j22247930593470_1_alg».proof.Proof.Gen.Kernel.Launch
import proofs.«138829_j22247930593470_1_alg».proof.Proof.Gen.Kernel.Points
import proofs.«138829_j22247930593470_1_alg».proof.Proof.Gen.Kernel.Frame
import proofs.«138829_j22247930593470_1_alg».proof.Proof.Gen.KernelIdeal
import proofs.«138829_j22247930593470_1_alg».proof.Proof.Gen.KernelIdeal.Skeleton
import proofs.«138829_j22247930593470_1_alg».proof.Proof.Gen.KernelIdeal.Launch
import proofs.«138829_j22247930593470_1_alg».proof.Proof.Gen.KernelIdeal.Points
import proofs.«138829_j22247930593470_1_alg».proof.Proof.Gen.KernelIdeal.Frame
import proofs.«138829_j22247930593470_1_alg».proof.Proof.Gen.ReferenceIdeal
import proofs.«138829_j22247930593470_1_alg».proof.Proof.Gen.Pre_finite_inputs
import proofs.«138829_j22247930593470_1_alg».proof.Proof.Gen.KernelIdeal.Value
import proofs.«138829_j22247930593470_1_alg».proof.Proof.Gen.ReferenceIdeal.Run
import proofs.«138829_j22247930593470_1_alg».proof.Proof.Gen.ReferenceIdeal.Read
import proofs.«138829_j22247930593470_1_alg».proof.Proof.KernelArray
import proofs.«138829_j22247930593470_1_alg».proof.Proof.RefCell
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals the kernel's two result arrays and the reference's are the cell of the arguments:
    the hidden state `hidArr` and the memory `memArr`. -/
theorem algebraic : Cert.algebraic_KernelIdeal_ReferenceIdeal := by
  intro m ρ m' ρ' _ hagree
  refine ⟨fun c => Cert.TreeLstm.Kernel.hidArr m c, fun c => Cert.TreeLstm.Kernel.memArr m c, Cert.TreeLstm.Kernel.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13, a14⟩ := hagree c
    rw [(h c).1, Cert.ReferenceIdeal.Read.val_main_v58_eq, Cert.TreeLstm.Ref.hid_eq]
    unfold Cert.TreeLstm.Kernel.hidArr
    rw [a0, a1, a2, a3, a4, a5, a6, a7, a8, a9, a10, a11, a12, a13, a14]
  · obtain ⟨a0, a1, a2, a3, a4, a5, a6, a7, a8, a9, a10, a11, a12, a13, a14⟩ := hagree c
    rw [(h c).2.1, Cert.ReferenceIdeal.Read.val_main_v56_eq, Cert.TreeLstm.Ref.mem_eq]
    unfold Cert.TreeLstm.Kernel.memArr
    rw [a0, a1, a2, a3, a4, a5, a6, a7, a8, a12, a13, a14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
